-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S16x341 : Shape := ⟨2, ![16, 341]⟩
abbrev S16x16x16x1 : Shape := ⟨4, ![16, 16, 16, 1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S16x341 : S_.BroadcastsInDim S16x341 (![] : Fin 0 → Fin S16x341.rank)
  reducesTo_S16x341_S_d0_1 : S16x341.ReducesTo [0, 1] S_
  bcast_S_S16x16x16x1 : S_.BroadcastsInDim S16x16x16x1 (![] : Fin 0 → Fin S16x16x16x1.rank)
  reducesTo_S16x16x16x1_S_d0_1_2_3 : S16x16x16x1.ReducesTo [0, 1, 2, 3] S_

variable [Facts]

def fn_part1 {F : FTy → Type} [FloatOps F] (main_arg4 : FVec F S16x16x16x1 .f32) (main_v13 : IVec S_ 1) (main_v16 : IVec S16x341 1) : IVec S_ 1 :=
  let main_c_5 : IVec S_ 1 := constantI S_ 1 1#1
  let main_v17 : IVec S_ 1 := (fun x v => Host.reduce IntOp.andi x v reducesTo_S16x341_S_d0_1 h_S_) main_v16 main_c_5
  let main_v18 : IVec S_ 1 := andi main_v13 main_v17
  let main_v19 : FVec F S16x16x16x1 .f32 := Host.absf main_arg4
  let main_cst_6 : FVec F S_ .f32 := constant S_ .f32 0x7F800000#32
  let main_v20 : FVec F S16x16x16x1 .f32 := broadcastInDim S16x16x16x1 ![] bcast_S_S16x16x16x1 main_cst_6
  let main_v21 : IVec S16x16x16x1 1 := cmpf .olt main_v19 main_v20
  let main_c_7 : IVec S_ 1 := constantI S_ 1 1#1
  let main_v22 : IVec S_ 1 := (fun x v => Host.reduce IntOp.andi x v reducesTo_S16x16x16x1_S_d0_1_2_3 h_S_) main_v21 main_c_7
  let main_v23 : IVec S_ 1 := andi main_v18 main_v22
  main_v23

def fn {F : FTy → Type} [FloatOps F] (main_arg0 : FVec F S8x4096x1024 .f32) (main_arg1 : FVec F S16x341 .f32) (main_arg2 : FVec F S16x341 .f32) (main_arg3 : FVec F S16x341 .f32) (main_arg4 : FVec F S16x16x16x1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S16x341 .f32 := Host.absf main_arg1
  let main_cst_0 : FVec F S_ .f32 := constant S_ .f32 0x7F800000#32
  let main_v5 : FVec F S16x341 .f32 := broadcastInDim S16x341 ![] bcast_S_S16x341 main_cst_0
  let main_v6 : IVec S16x341 1 := cmpf .olt main_v4 main_v5
  let main_c_1 : IVec S_ 1 := constantI S_ 1 1#1
  let main_v7 : IVec S_ 1 := (fun x v => Host.reduce IntOp.andi x v reducesTo_S16x341_S_d0_1 h_S_) main_v6 main_c_1
  let main_v8 : IVec S_ 1 := andi main_v3 main_v7
  let main_v9 : FVec F S16x341 .f32 := Host.absf main_arg2
  let main_cst_2 : FVec F S_ .f32 := constant S_ .f32 0x7F800000#32
  let main_v10 : FVec F S16x341 .f32 := broadcastInDim S16x341 ![] bcast_S_S16x341 main_cst_2
  let main_v11 : IVec S16x341 1 := cmpf .olt main_v9 main_v10
  let main_c_3 : IVec S_ 1 := constantI S_ 1 1#1
  let main_v12 : IVec S_ 1 := (fun x v => Host.reduce IntOp.andi x v reducesTo_S16x341_S_d0_1 h_S_) main_v11 main_c_3
  let main_v13 : IVec S_ 1 := andi main_v8 main_v12
  let main_v14 : FVec F S16x341 .f32 := Host.absf main_arg3
  let main_cst_4 : FVec F S_ .f32 := constant S_ .f32 0x7F800000#32
  let main_v15 : FVec F S16x341 .f32 := broadcastInDim S16x341 ![] bcast_S_S16x341 main_cst_4
  let main_v16 : IVec S16x341 1 := cmpf .olt main_v14 main_v15
  fn_part1 (F := F) main_arg4 main_v13 main_v16
-- ==== Kernel.lean ====
abbrev S8x4096x1024 : Shape := ⟨3, ![8, 4096, 1024]⟩
abbrev S16x341 : Shape := ⟨2, ![16, 341]⟩
abbrev S16x16x16x1 : Shape := ⟨4, ![16, 16, 16, 1]⟩
abbrev S16x1x1x341 : Shape := ⟨4, ![16, 1, 1, 341]⟩
abbrev S16x16x16x341 : Shape := ⟨4, ![16, 16, 16, 341]⟩
abbrev S1x16x1x341 : Shape := ⟨4, ![1, 16, 1, 341]⟩
abbrev S1x1x16x341 : Shape := ⟨4, ![1, 1, 16, 341]⟩
abbrev S16x16x16x1024 : Shape := ⟨4, ![16, 16, 16, 1024]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 14
  | .vmem => 4
  | .smem => 0
  | _ => 0

abbrev bufTy : (tb : Table) → Fin (tcTables nBuf tb) → BufTy
  | .hbm, ⟨0, _⟩ => ⟨S8x4096x1024, .f32⟩
  | .hbm, ⟨1, _⟩ => ⟨S16x341, .f32⟩
  | .hbm, ⟨2, _⟩ => ⟨S16x341, .f32⟩
  | .hbm, ⟨3, _⟩ => ⟨S16x341, .f32⟩
  | .hbm, ⟨4, _⟩ => ⟨S16x16x16x1, .f32⟩
  | .hbm, ⟨5, _⟩ => ⟨S16x1x1x341, .f32⟩
  | .hbm, ⟨6, _⟩ => ⟨S16x16x16x341, .f32⟩
  | .hbm, ⟨7, _⟩ => ⟨S1x16x1x341, .f32⟩
  | .hbm, ⟨8, _⟩ => ⟨S16x16x16x341, .f32⟩
  | .hbm, ⟨9, _⟩ => ⟨S1x1x16x341, .f32⟩
  | .hbm, ⟨10, _⟩ => ⟨S16x16x16x341, .f32⟩
  | .hbm, ⟨11, _⟩ => ⟨S16x16x16x1024, .f32⟩
  | .hbm, ⟨12, _⟩ => ⟨S4096x1024, .f32⟩
  | .hbm, ⟨13, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S16x341_S16x1x1x341_0_3 : S16x341.BroadcastsInDim S16x1x1x341 (![0, 3] : Fin 2 → Fin S16x1x1x341.rank)
  bcast_S16x1x1x341_S16x16x16x341_0_1_2_3 : S16x1x1x341.BroadcastsInDim S16x16x16x341 (![0, 1, 2, 3] : Fin 4 → Fin S16x16x16x341.rank)
  bcast_S16x341_S1x16x1x341_1_3 : S16x341.BroadcastsInDim S1x16x1x341 (![1, 3] : Fin 2 → Fin S1x16x1x341.rank)
  bcast_S1x16x1x341_S16x16x16x341_0_1_2_3 : S1x16x1x341.BroadcastsInDim S16x16x16x341 (![0, 1, 2, 3] : Fin 4 → Fin S16x16x16x341.rank)
  bcast_S16x341_S1x1x16x341_2_3 : S16x341.BroadcastsInDim S1x1x16x341 (![2, 3] : Fin 2 → Fin S1x1x16x341.rank)
  bcast_S1x1x16x341_S16x16x16x341_0_1_2_3 : S1x1x16x341.BroadcastsInDim S16x16x16x341 (![0, 1, 2, 3] : Fin 4 → Fin S16x16x16x341.rank)
  concatenates_S16x16x16x341_S16x16x16x341_S16x16x16x341_S16x16x16x1_S16x16x16x1024_d3 : Shape.Concatenates [S16x16x16x341, S16x16x16x341, S16x16x16x341, S16x16x16x1] S16x16x16x1024 3
  shapeCasts_S16x16x16x1024_S4096x1024 : S16x16x16x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S1x1024x1024 : S1024x1024.ShapeCasts S1x1024x1024
  inb_S1x1024x1024_S1x1024x1024_0_0_0 : ∀ a, (![0, 0, 0] : Fin 3 → Nat) a + S1x1024x1024.size a ≤ S1x1024x1024.size a
  h_S1x1024x1024 : 0 < S1x1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)

variable [Facts₀]

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S16x341 : Shape := ⟨2, ![16, 341]⟩
abbrev S16x16x16x1 : Shape := ⟨4, ![16, 16, 16, 1]⟩
abbrev S16x1x1x341 : Shape := ⟨4, ![16, 1, 1, 341]⟩
abbrev S16x16x16x341 : Shape := ⟨4, ![16, 16, 16, 341]⟩
abbrev S1x16x1x341 : Shape := ⟨4, ![1, 16, 1, 341]⟩
abbrev S1x1x16x341 : Shape := ⟨4, ![1, 1, 16, 341]⟩
abbrev S16x16x16x1024 : Shape := ⟨4, ![16, 16, 16, 1024]⟩
abbrev S4096x1024 : Shape := ⟨2, ![4096, 1024]⟩
abbrev S1x4096x1024 : Shape := ⟨3, ![1, 4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x341, .f32⟩
  | .hbm, ⟨2, _⟩ => ⟨S16x341, .f32⟩
  | .hbm, ⟨3, _⟩ => ⟨S16x341, .f32⟩
  | .hbm, ⟨4, _⟩ => ⟨S16x16x16x1, .f32⟩
  | .hbm, ⟨5, _⟩ => ⟨S16x1x1x341, .f32⟩
  | .hbm, ⟨6, _⟩ => ⟨S16x16x16x341, .f32⟩
  | .hbm, ⟨7, _⟩ => ⟨S1x16x1x341, .f32⟩
  | .hbm, ⟨8, _⟩ => ⟨S16x16x16x341, .f32⟩
  | .hbm, ⟨9, _⟩ => ⟨S1x1x16x341, .f32⟩
  | .hbm, ⟨10, _⟩ => ⟨S16x16x16x341, .f32⟩
  | .hbm, ⟨11, _⟩ => ⟨S16x16x16x1024, .f32⟩
  | .hbm, ⟨12, _⟩ => ⟨S4096x1024, .f32⟩
  | .hbm, ⟨13, _⟩ => ⟨S1x4096x1024, .f32⟩
  | .hbm, ⟨14, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S16x341_S16x1x1x341_0_3 : S16x341.BroadcastsInDim S16x1x1x341 (![0, 3] : Fin 2 → Fin S16x1x1x341.rank)
  bcast_S16x1x1x341_S16x16x16x341_0_1_2_3 : S16x1x1x341.BroadcastsInDim S16x16x16x341 (![0, 1, 2, 3] : Fin 4 → Fin S16x16x16x341.rank)
  bcast_S16x341_S1x16x1x341_1_3 : S16x341.BroadcastsInDim S1x16x1x341 (![1, 3] : Fin 2 → Fin S1x16x1x341.rank)
  bcast_S1x16x1x341_S16x16x16x341_0_1_2_3 : S1x16x1x341.BroadcastsInDim S16x16x16x341 (![0, 1, 2, 3] : Fin 4 → Fin S16x16x16x341.rank)
  bcast_S16x341_S1x1x16x341_2_3 : S16x341.BroadcastsInDim S1x1x16x341 (![2, 3] : Fin 2 → Fin S1x1x16x341.rank)
  bcast_S1x1x16x341_S16x16x16x341_0_1_2_3 : S1x1x16x341.BroadcastsInDim S16x16x16x341 (![0, 1, 2, 3] : Fin 4 → Fin S16x16x16x341.rank)
  concatenates_S16x16x16x341_S16x16x16x341_S16x16x16x341_S16x16x16x1_S16x16x16x1024_d3 : Shape.Concatenates [S16x16x16x341, S16x16x16x341, S16x16x16x341, S16x16x16x1] S16x16x16x1024 3
  shapeCasts_S16x16x16x1024_S4096x1024 : S16x16x16x1024.ShapeCasts S4096x1024
  bcast_S4096x1024_S1x4096x1024_1_2 : S4096x1024.BroadcastsInDim S1x4096x1024 (![1, 2] : Fin 2 → Fin S1x4096x1024.rank)
  bcast_S1x4096x1024_S8x4096x1024_0_1_2 : S1x4096x1024.BroadcastsInDim S8x4096x1024 (![0, 1, 2] : Fin 3 → Fin S8x4096x1024.rank)

variable [Facts₀]

class Facts : Prop extends Facts₀ where

variable [Facts]
-- ==== Proof.BitsCopyRun.lean ====
/-
  The kernel program's run, at any float instance (nothing below depends on which).

  @main builds the positional table `pe : [4096, 1024]` on the host (three row tables broadcast over a 16×16×16 lattice,
  joined with a fourth along the last axis, the lattice flattened) and then launches ONE region over a 4 × 8 grid.
  At point (n, b) the region stages rows [1024·n, 1024·(n+1)) of `pe` and writes them back as slice `b` of the
  [8, 4096, 1024] result: the body loads the staged block whole, gives it a leading unit axis, and stores it whole.
  Nothing is computed, nothing is kept between points, and no argument array is a window of the region.

  Here: what each core's buffers hold when the region is entered (`entryVal`), that no host line writes an argument,
  the body's one-load-one-store triple, the proof data of the pipeline, the run to the library's frame post, and from
  it the frame statement (every argument array ends as launched).
-/
import proofs.«176022_j41308995453355_1_alg».proof.Proof.Gen.Kernel.Launch
import proofs.«176022_j41308995453355_1_alg».proof.Proof.Gen.Kernel.Skeleton
import proofs.«176022_j41308995453355_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CopyRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents run through the eight host lines. -/
abbrev entryVal (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is its host lines, then the region. -/
theorem main_upto_region (𝒱₀ : Variants) :
    Pipeline.HMain (Ix := Unit) (Name := ℕ) (U := UR sig nD τ) (Lvl := ℕ) cfgs 0 defs₀ 𝒱₀ m (main (F := F)) (entryVal m) :=
  Pipeline.hmain_prefix cfgs 0 defs₀ 𝒱₀ m main hostOps0 hostOps0_sub hostOps0_fresh main_chain

/-- A buffer none of the eight host lines writes is found as launched. The lines write `main_v0` … `main_v7` only. -/
theorem entryVal_of_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    entryVal m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem entryVal_arg0 (c : Dev nD) : entryVal m c main_arg0 = m ((c : Thread nD τ).loc main_arg0) :=
  entryVal_of_unwritten m c main_arg0 (by decide)
theorem entryVal_arg1 (c : Dev nD) : entryVal m c main_arg1 = m ((c : Thread nD τ).loc main_arg1) :=
  entryVal_of_unwritten m c main_arg1 (by decide)
theorem entryVal_arg2 (c : Dev nD) : entryVal m c main_arg2 = m ((c : Thread nD τ).loc main_arg2) :=
  entryVal_of_unwritten m c main_arg2 (by decide)
theorem entryVal_arg3 (c : Dev nD) : entryVal m c main_arg3 = m ((c : Thread nD τ).loc main_arg3) :=
  entryVal_of_unwritten m c main_arg3 (by decide)
theorem entryVal_arg4 (c : Dev nD) : entryVal m c main_arg4 = m ((c : Thread nD τ).loc main_arg4) :=
  entryVal_of_unwritten m c main_arg4 (by decide)

/-! ## The staged block -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- The table's window holds its block at every point, fetched there or not (the row index moves only every eighth
    point; between fetches the buffer is left as it was), for any proof data over `entryVal` whose body leaves it. -/
theorem staged_table_of {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole of the staged table block, and the whole of the result's staging buffer. -/
abbrev wholeIn : Rect S1024x1024 := Rect.unit (s := S1024x1024) ![0, 0] S1024x1024.size inb_S1024x1024_S1024x1024_0_0
abbrev wholeOut : Rect S1x1024x1024 := Rect.unit (s := S1x1024x1024) ![0, 0, 0] S1x1024x1024.size inb_S1x1024x1024_S1x1024x1024_0_0_0

/-- What the body leaves in the result's staging buffer: its one store, of the loaded block under a leading unit axis. -/
def copied (x : Vec F S1024x1024 .f32) : Vec F S1x1024x1024 .f32 :=
  View.canon [⟨wholeOut, k0_pay1 (View.ld x wholeIn)⟩]

/-- The one store covers the buffer. -/
theorem copied_cover (p : Vec F S1x1024x1024 .f32) (y : S1x1024x1024.Idx) :
    ∃ pc ∈ ([⟨wholeOut, p⟩] : List (View.Piece (Elt F) S1x1024x1024 .f32)), y ∈ pc.1.set :=
  View.cover_of_tiled [⟨wholeOut, p⟩] S1x1024x1024.size (by rfl) y

set_option maxHeartbeats 1000000 in
/-- The body on whole staging memrefs, the table's at contents `x` and the result's at anything: it ends with the
    table's as it was and the result's at `copied x`. -/
theorem body_triple (c : Dev nD) (E : Set ℕ) (i : grid0.Coords) (arg2 : Memref sig .tc .vmem S1024x1024 .f32) (harg2 : arg2.IsWhole)
    (arg3 : Memref sig .tc .vmem S1x1024x1024 .f32) (harg3 : arg3.IsWhole)
    (x : Vec F S1024x1024 .f32) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (copied x)) -∗ K ⟨⟩))
      ⊢ wp frame (wpE (defs₀ (F := F)) Variants.none c none) E (cc0__broadcast_kernel i arg2 harg2 arg3 harg3) K := by
  simp only [cc0__broadcast_kernel_eq_skeleton]; unfold cc0__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (copied_cover _)

/-! ## The pipeline's proof data -/

/-- Per core: the arrays as the region finds them; after the body at point `t` the table's buffer at its block and the
    result's at `copied` of that block; the invariant the plain one (nothing scoped but the staging buffers); nothing
    owed; full shares. -/
def dats (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => copied (blockAt m c 0 t)
  Φ _ := Pipeline.ΦA spec0 c
  q _ := fullShare
  owed _ := 0

theorem dats_A (c : Dev nD) (w : Fin cfg0.W) : (dats m 0 c).A w = entryVal m c (Pipeline.arrRef spec0 w) := by
  dsimp only [dats]
theorem dats_after_table (c : Dev nD) (t : Fin cfg0.N) : (dats m 0 c).after 0 t = blockAt m c 0 t := by dsimp only [dats]
theorem dats_after_result (c : Dev nD) (t : Fin cfg0.N) : (dats m 0 c).after 1 t = copied (blockAt m c 0 t) := by dsimp only [dats]

theorem staged_table (c : Dev nD) (t : Fin cfg0.N) (d) : (dats m 0 c).before 0 t d = blockAt m c 0 t :=
  staged_table_of m (dats m 0 c) (dats_A m c 0) (dats_after_table m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_table]
  rw [show (dats m 0 c).Φ t.succ = (dats m 0 c).Φ t.castSucc from rfl,
    show (dats m 0 c).owesAt () t.succ = (dats m 0 c).owesAt () t.castSucc from rfl,
    dats_after_table, dats_after_result]
  iintro ⟨HΦ, Ho, ⟨%d0, H0⟩, ⟨%d1, H1⟩⟩
  iapply (body_triple c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates; at the end each window's array is what the library computes from
    the proof data, and every other unscoped buffer is as the region found it. -/
theorem run_main : θ_run defs (onTc (τ := τ) (main (F := F))) (s₀ m ρ) (Pipeline.FramePost cfgs (dats m) 0 (entryVal m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entryVal m) (hmain := main_upto_region m Variants.none) (hA := dats_A m) (hΦ := fun _ _ => rfl)

/-- No argument is a window's array, so each is among the buffers the region leaves as it found them, and no host line wrote it. -/
theorem kept_args (r : PUnit × MemSt nD τ sig (Elt F)) (h : Pipeline.FramePost cfgs (dats m) 0 (entryVal m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (entryVal_arg0 m c),
   ((h c).2 main_arg1 (Pipeline.mem_restRefs_of main_arg1 (by decide) (by decide))).trans (entryVal_arg1 m c),
   ((h c).2 main_arg2 (Pipeline.mem_restRefs_of main_arg2 (by decide) (by decide))).trans (entryVal_arg2 m c),
   ((h c).2 main_arg3 (Pipeline.mem_restRefs_of main_arg3 (by decide) (by decide))).trans (entryVal_arg3 m c),
   ((h c).2 main_arg4 (Pipeline.mem_restRefs_of main_arg4 (by decide) (by decide))).trans (entryVal_arg4 m c)⟩

/-- The frame: @main terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_args m r h c) (run_main m ρ)

end Cert.Kernel.CopyRun

end
-- ==== Proof.IdealCopyRun.lean ====
/-
  The kernel program's run, at any float instance (nothing below depends on which).

  @main builds the positional table `pe : [4096, 1024]` on the host (three row tables broadcast over a 16×16×16 lattice,
  joined with a fourth along the last axis, the lattice flattened) and then launches ONE region over a 4 × 8 grid.
  At point (n, b) the region stages rows [1024·n, 1024·(n+1)) of `pe` and writes them back as slice `b` of the
  [8, 4096, 1024] result: the body loads the staged block whole, gives it a leading unit axis, and stores it whole.
  Nothing is computed, nothing is kept between points, and no argument array is a window of the region.

  Here: what each core's buffers hold when the region is entered (`entryVal`), that no host line writes an argument,
  the body's one-load-one-store triple, the proof data of the pipeline, the run to the library's frame post, and from
  it the frame statement (every argument array ends as launched).
-/
import proofs.«176022_j41308995453355_1_alg».proof.Proof.Gen.KernelIdeal.Launch
import proofs.«176022_j41308995453355_1_alg».proof.Proof.Gen.KernelIdeal.Skeleton
import proofs.«176022_j41308995453355_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CopyRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents run through the eight host lines. -/
abbrev entryVal (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is its host lines, then the region. -/
theorem main_upto_region (𝒱₀ : Variants) :
    Pipeline.HMain (Ix := Unit) (Name := ℕ) (U := UR sig nD τ) (Lvl := ℕ) cfgs 0 defs₀ 𝒱₀ m (main (F := F)) (entryVal m) :=
  Pipeline.hmain_prefix cfgs 0 defs₀ 𝒱₀ m main hostOps0 hostOps0_sub hostOps0_fresh main_chain

/-- A buffer none of the eight host lines writes is found as launched. The lines write `main_v0` … `main_v7` only. -/
theorem entryVal_of_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7) :
    entryVal m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    obtain ⟨h0, h1, h2, h3, h4, h5, h6, h7⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem entryVal_arg0 (c : Dev nD) : entryVal m c main_arg0 = m ((c : Thread nD τ).loc main_arg0) :=
  entryVal_of_unwritten m c main_arg0 (by decide)
theorem entryVal_arg1 (c : Dev nD) : entryVal m c main_arg1 = m ((c : Thread nD τ).loc main_arg1) :=
  entryVal_of_unwritten m c main_arg1 (by decide)
theorem entryVal_arg2 (c : Dev nD) : entryVal m c main_arg2 = m ((c : Thread nD τ).loc main_arg2) :=
  entryVal_of_unwritten m c main_arg2 (by decide)
theorem entryVal_arg3 (c : Dev nD) : entryVal m c main_arg3 = m ((c : Thread nD τ).loc main_arg3) :=
  entryVal_of_unwritten m c main_arg3 (by decide)
theorem entryVal_arg4 (c : Dev nD) : entryVal m c main_arg4 = m ((c : Thread nD τ).loc main_arg4) :=
  entryVal_of_unwritten m c main_arg4 (by decide)

/-! ## The staged block -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- The table's window holds its block at every point, fetched there or not (the row index moves only every eighth
    point; between fetches the buffer is left as it was), for any proof data over `entryVal` whose body leaves it. -/
theorem staged_table_of {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole of the staged table block, and the whole of the result's staging buffer. -/
abbrev wholeIn : Rect S1024x1024 := Rect.unit (s := S1024x1024) ![0, 0] S1024x1024.size inb_S1024x1024_S1024x1024_0_0
abbrev wholeOut : Rect S1x1024x1024 := Rect.unit (s := S1x1024x1024) ![0, 0, 0] S1x1024x1024.size inb_S1x1024x1024_S1x1024x1024_0_0_0

/-- What the body leaves in the result's staging buffer: its one store, of the loaded block under a leading unit axis. -/
def copied (x : Vec F S1024x1024 .f32) : Vec F S1x1024x1024 .f32 :=
  View.canon [⟨wholeOut, k0_pay1 (View.ld x wholeIn)⟩]

/-- The one store covers the buffer. -/
theorem copied_cover (p : Vec F S1x1024x1024 .f32) (y : S1x1024x1024.Idx) :
    ∃ pc ∈ ([⟨wholeOut, p⟩] : List (View.Piece (Elt F) S1x1024x1024 .f32)), y ∈ pc.1.set :=
  View.cover_of_tiled [⟨wholeOut, p⟩] S1x1024x1024.size (by rfl) y

set_option maxHeartbeats 1000000 in
/-- The body on whole staging memrefs, the table's at contents `x` and the result's at anything: it ends with the
    table's as it was and the result's at `copied x`. -/
theorem body_triple (c : Dev nD) (E : Set ℕ) (i : grid0.Coords) (arg2 : Memref sig .tc .vmem S1024x1024 .f32) (harg2 : arg2.IsWhole)
    (arg3 : Memref sig .tc .vmem S1x1024x1024 .f32) (harg3 : arg3.IsWhole)
    (x : Vec F S1024x1024 .f32) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (copied x)) -∗ K ⟨⟩))
      ⊢ wp frame (wpE (defs₀ (F := F)) Variants.none c none) E (cc0__broadcast_kernel i arg2 harg2 arg3 harg3) K := by
  simp only [cc0__broadcast_kernel_eq_skeleton]; unfold cc0__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (copied_cover _)

/-! ## The pipeline's proof data -/

/-- Per core: the arrays as the region finds them; after the body at point `t` the table's buffer at its block and the
    result's at `copied` of that block; the invariant the plain one (nothing scoped but the staging buffers); nothing
    owed; full shares. -/
def dats (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => copied (blockAt m c 0 t)
  Φ _ := Pipeline.ΦA spec0 c
  q _ := fullShare
  owed _ := 0

theorem dats_A (c : Dev nD) (w : Fin cfg0.W) : (dats m 0 c).A w = entryVal m c (Pipeline.arrRef spec0 w) := by
  dsimp only [dats]
theorem dats_after_table (c : Dev nD) (t : Fin cfg0.N) : (dats m 0 c).after 0 t = blockAt m c 0 t := by dsimp only [dats]
theorem dats_after_result (c : Dev nD) (t : Fin cfg0.N) : (dats m 0 c).after 1 t = copied (blockAt m c 0 t) := by dsimp only [dats]

theorem staged_table (c : Dev nD) (t : Fin cfg0.N) (d) : (dats m 0 c).before 0 t d = blockAt m c 0 t :=
  staged_table_of m (dats m 0 c) (dats_A m c 0) (dats_after_table m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged_table]
  rw [show (dats m 0 c).Φ t.succ = (dats m 0 c).Φ t.castSucc from rfl,
    show (dats m 0 c).owesAt () t.succ = (dats m 0 c).owesAt () t.castSucc from rfl,
    dats_after_table, dats_after_result]
  iintro ⟨HΦ, Ho, ⟨%d0, H0⟩, ⟨%d1, H1⟩⟩
  iapply (body_triple c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates; at the end each window's array is what the library computes from
    the proof data, and every other unscoped buffer is as the region found it. -/
theorem run_main : θ_run defs (onTc (τ := τ) (main (F := F))) (s₀ m ρ) (Pipeline.FramePost cfgs (dats m) 0 (entryVal m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entryVal m) (hmain := main_upto_region m Variants.none) (hA := dats_A m) (hΦ := fun _ _ => rfl)

/-- No argument is a window's array, so each is among the buffers the region leaves as it found them, and no host line wrote it. -/
theorem kept_args (r : PUnit × MemSt nD τ sig (Elt F)) (h : Pipeline.FramePost cfgs (dats m) 0 (entryVal m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (entryVal_arg0 m c),
   ((h c).2 main_arg1 (Pipeline.mem_restRefs_of main_arg1 (by decide) (by decide))).trans (entryVal_arg1 m c),
   ((h c).2 main_arg2 (Pipeline.mem_restRefs_of main_arg2 (by decide) (by decide))).trans (entryVal_arg2 m c),
   ((h c).2 main_arg3 (Pipeline.mem_restRefs_of main_arg3 (by decide) (by decide))).trans (entryVal_arg3 m c),
   ((h c).2 main_arg4 (Pipeline.mem_restRefs_of main_arg4 (by decide) (by decide))).trans (entryVal_arg4 m c)⟩

/-- The frame: @main terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_args m r h c) (run_main m ρ)

end Cert.KernelIdeal.CopyRun

end
-- ==== Proof.BatchSpec.lean ====
/-
  The statement both programs meet. The positional table `pe` has one row per lattice site, [4096, 1024]; the result
  [8, 4096, 1024] repeats it once per batch element: entry (b, n, k) of the result is entry (n, k) of the table,
  whatever b is.
-/
import Idealize.ShloMosaic.Lib.ValueIdx

namespace Cert.BatchSpec

open Idealize.ShloMosaic Idealize.ShloMosaic.ValueIdx

/-- The table laid under each of the eight batch slices. -/
def overBatch {α : Type} (pe : (⟨2, ![4096, 1024]⟩ : Shape).Idx → α) : (⟨3, ![8, 4096, 1024]⟩ : Shape).Idx → α :=
  fun i => pe (ix2 (i 1) (i 2))

theorem overBatch_apply {α : Type} (pe : (⟨2, ![4096, 1024]⟩ : Shape).Idx → α) (i : (⟨3, ![8, 4096, 1024]⟩ : Shape).Idx) :
    overBatch pe i = pe (ix2 (i 1) (i 2)) := rfl

end Cert.BatchSpec
-- ==== Proof.IdealCopyValue.lean ====
/-
  What the idealized kernel's result array holds after the run.

  Point t = (n, b) of the 4 × 8 grid stages rows [1024·n, 1024·(n+1)) of the table and writes them back as rows
  [1024·n, 1024·(n+1)) of batch slice b. The body only relabels the block (a leading unit axis), so what the point
  writes back is the block at (b, n, 0) of `overBatch pe`. The 32 blocks tile the [8, 4096, 1024] array — index
  (b, r, k) lies in the block of the point with batch coordinate b and row-tile r / 1024 — so the array ends at
  `overBatch pe`, where `pe` is what the host lines left in the table's buffer: the three row tables broadcast over
  the lattice and joined with the fourth along the last axis, flattened to [4096, 1024].
-/
import proofs.«176022_j41308995453355_1_alg».proof.Proof.IdealCopyRun
import proofs.«176022_j41308995453355_1_alg».proof.Proof.BatchSpec
import Idealize.ShloMosaic.Lib.Pipeline.Value
import Idealize.ShloMosaic.Lib.ValueIdx
import Idealize.ShloMosaic.Lib.StableHlo.Run

set_option maxRecDepth 16384

noncomputable section

namespace Cert.KernelIdeal.CopyValue

open Cert.KernelIdeal Cert.KernelIdeal.Gen Cert.KernelIdeal.CopyRun Cert.BatchSpec
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The body's payload at an index -/

/-- The block under its new leading unit axis: entry (0, r, k) is entry (r, k) of the block. -/
theorem lifted_apply (x : Vec F S1024x1024 .f32) (j : S1x1024x1024.Idx) :
    k0_pay1 x j = x (ix2 (j 1) (j 2)) := by
  unfold k0_pay1
  rw [shapeCast_self]
  refine shapeCast_apply x _ j (ix2 (j 1) (j 2)) ?_
  rw [Shape.rowMajor_val_two, Shape.rowMajor_val_three]
  have h0 : (j 0).val < 1 := (j 0).isLt
  show (j 1).val * 1024 + (j 2).val = ((j 0).val * 1024 + (j 1).val) * 1024 + (j 2).val
  omega

/-! ## What a point writes back -/

theorem origin2 : (![0, 0] : Fin 2 → Nat) = fun _ => 0 := funext fun a => by fin_cases a <;> rfl
theorem origin3 : (![0, 0, 0] : Fin 3 → Nat) = fun _ => 0 := funext fun a => by fin_cases a <;> rfl

/-- The two index maps over the grid: the table's row tile is the result's, the table's column tile and the result's
    are 0, and the result's batch and row tiles stay in range. -/
theorem tiles : ∀ t : Fin cfg0.N, win0_0.index t (0 : Fin 2) = win0_1.index t (1 : Fin 3)
    ∧ win0_0.index t (1 : Fin 2) = 0 ∧ win0_1.index t (2 : Fin 3) = 0
    ∧ win0_1.index t (0 : Fin 3) < 8 ∧ win0_1.index t (1 : Fin 3) < 4 :=
  (by decide +kernel : ∀ t : Fin grid0.N, _)

/-- Every (batch, row-tile) pair is some point's. -/
theorem tiles_onto : ∀ (b : Fin 8) (n : Fin 4), ∃ t : Fin cfg0.N, win0_1.index t = ![b.val, n.val, 0] :=
  (by decide +kernel : ∀ (b : Fin 8) (n : Fin 4), ∃ t : Fin grid0.N, win0_1.index t = ![b.val, n.val, 0])

/-- The table as the region finds it. -/
abbrev tableAt (c : Dev nD) : S4096x1024.Idx → Elt F .f32 := entryVal m c main_v7

/-- Point `t` writes back block `t` of the table laid under every batch slice. -/
theorem written_back (c : Dev nD) (t : Fin cfg0.N) :
    (dats m 0 c).flushed 1 t = ((cfg0.win 1).blk t).view.read (Elt F) (overBatch (tableAt m c)) := by
  show (cfg0.win 1).cut (grid0.coords t) ((dats m 0 c).after 1 t) = _
  rw [dats_after_result]
  unfold copied
  rw [View.canon_unit_zero origin3]
  simp only [View.ld_unit_zero (S := S1024x1024) origin2]
  obtain ⟨e0, e1, e2, e3, e4⟩ := tiles t
  funext j
  show k0_pay1 (blockAt m c 0 t) j = overBatch (tableAt m c) (((cfg0.win 1).blk t).view.emb j)
  rw [lifted_apply, overBatch_apply]
  show tableAt m c (((cfg0.win 0).blk t).view.emb (ix2 (j 1) (j 2))) = _
  congr 1
  funext a; apply Fin.ext
  match a with
  | ⟨0, _⟩ => show win0_0.index t (0 : Fin 2) * 1024 + 1 * (j 1).val = win0_1.index t (1 : Fin 3) * 1024 + 1 * (j 1).val; omega
  | ⟨1, _⟩ => show win0_0.index t (1 : Fin 2) * 1024 + 1 * (j 2).val = win0_1.index t (2 : Fin 3) * 1024 + 1 * (j 2).val; omega

/-! ## The blocks tile the result -/

theorem mem_block (t : Fin cfg0.N) (i : S8x4096x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v8).slice (win0_1.rect t)).set ↔ _
  rw [View.set_slice_whole, Rect.mem_set_unit]
  exact Iff.rfl

/-- Index (b, r, k) is in the block of the point with batch coordinate b and row tile r / 1024. -/
theorem tiled (i : S8x4096x1024.Idx) : ∃ t : Fin cfg0.N, (cfg0.win 1).flush t = true ∧ i ∈ ((cfg0.win 1).blk t).view.set := by
  have hi0 : (i 0).val < 8 := (i 0).isLt
  have hi1 : (i 1).val < 4096 := (i 1).isLt
  have hi2 : (i 2).val < 1024 := (i 2).isLt
  obtain ⟨t, ht⟩ := tiles_onto ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- The result array after the run is the table under every batch slice. -/
theorem result_array (c : Dev nD) : (dats m 0 c).arrAt 1 cfg0.N = overBatch (tableAt m c) :=
  (dats m 0 c).arrAt_eq_of_cover 1 (overBatch (tableAt m c)) (fun t _ => written_back m c t) tiled

/-! ## The table, from the arguments -/

/-- The host lines' term: the three row tables broadcast along the lattice axes, joined with the fourth table along
    the last axis, and the lattice flattened. -/
def tableOf (x1 x2 x3 : S16x341.Idx → Elt F .f32) (x4 : S16x16x16x1.Idx → Elt F .f32) : S4096x1024.Idx → Elt F .f32 :=
  shapeCast S4096x1024 (concatenate S16x16x16x1024 3
    [⟨S16x16x16x341, broadcastInDim S16x16x16x341 ![0, 1, 2, 3] bcast_S16x1x1x341_S16x16x16x341_0_1_2_3 (broadcastInDim S16x1x1x341 ![0, 3] bcast_S16x341_S16x1x1x341_0_3 x1)⟩,
     ⟨S16x16x16x341, broadcastInDim S16x16x16x341 ![0, 1, 2, 3] bcast_S1x16x1x341_S16x16x16x341_0_1_2_3 (broadcastInDim S1x16x1x341 ![1, 3] bcast_S16x341_S1x16x1x341_1_3 x2)⟩,
     ⟨S16x16x16x341, broadcastInDim S16x16x16x341 ![0, 1, 2, 3] bcast_S1x1x16x341_S16x16x16x341_0_1_2_3 (broadcastInDim S1x1x16x341 ![2, 3] bcast_S16x341_S1x1x16x341_2_3 x3)⟩,
     ⟨S16x16x16x1, x4⟩]
    concatenates_S16x16x16x341_S16x16x16x341_S16x16x16x341_S16x16x16x1_S16x16x16x1024_d3) shapeCasts_S16x16x16x1024_S4096x1024

/-- What the region finds in the table's buffer is that term of the launch contents. -/
theorem tableAt_eq (c : Dev nD) :
    tableAt m c = tableOf (F := F) (m ((c : Thread nD τ).loc main_arg1)) (m ((c : Thread nD τ).loc main_arg2))
      (m ((c : Thread nD τ).loc main_arg3)) (m ((c : Thread nD τ).loc main_arg4)) := by
  unfold tableOf
  dsimp only [tableAt, entryVal, hostOps0]
  after_results
  rfl

/-! ## The run, read -/

/-- Every weakly fair execution of @main terminates with the result at the table under every batch slice and the
    arguments as launched. -/
theorem run : θ_run defs (onTc (τ := τ) (main (F := F))) ⟨m, fun _ => 0, ρ⟩ fun r => ∀ c : Dev nD,
      r.2.mem ((c.tc : Thread nD τ).loc main_v8) = overBatch (tableOf (F := F) (m ((c.tc : Thread nD τ).loc main_arg1)) (m ((c.tc : Thread nD τ).loc main_arg2))
        (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(((h c).1 1).trans (result_array m c)).trans (congrArg overBatch (tableAt_eq m c)),
      kept_args m r h c⟩)
    (run_main m ρ)

end Cert.KernelIdeal.CopyValue

end
-- ==== Proof.RefSide.lean ====
/-
  What the reference computes. Its @main builds the same positional table `pe : [4096, 1024]` (three row tables
  broadcast over the 16×16×16 lattice, joined with the fourth along the last axis, flattened), gives it a leading unit
  axis and broadcasts that axis to the batch size 8: entry (b, n, k) of the result is entry (n, k) of the table.
-/
import proofs.«176022_j41308995453355_1_alg».proof.Proof.Gen.ReferenceIdeal.Run
import proofs.«176022_j41308995453355_1_alg».proof.Proof.Gen.ReferenceIdeal.Read
import proofs.«176022_j41308995453355_1_alg».proof.Proof.BatchSpec
import Idealize.ShloMosaic.Lib.ValueIdx

noncomputable section

namespace Cert.ReferenceIdeal.RefSide

open Cert.ReferenceIdeal Cert.ReferenceIdeal.Gen Cert.ReferenceIdeal.Read Cert.BatchSpec
open Idealize.ShloMosaic Idealize.ShloMosaic.ValueIdx

variable {F : FTy → Type} [FloatOps F]

/-- Through the two broadcasts, result index (b, n, k) reads the table at (n, k). -/
theorem through_broadcasts (i : S8x4096x1024.Idx) : idx_main_v8 (idx_main_v9 i) = ix2 (i 1) (i 2) :=
  funext fun a => Fin.ext (by match a with | ⟨0, _⟩ => rfl | ⟨1, _⟩ => rfl)

/-- The reference's result is its table under every batch slice. -/
theorem result_is_overBatch (x1 x2 x3 : S16x341.Idx → Elt F .f32) (x4 : S16x16x16x1.Idx → Elt F .f32) :
    val_main_v9 (F := F) x1 x2 x3 x4 = overBatch (val_main_v7 (F := F) x1 x2 x3 x4) := by
  funext i
  rw [val_main_v9_apply, val_main_v8_apply, through_broadcasts, overBatch_apply]
  rfl

end Cert.ReferenceIdeal.RefSide

end
-- ==== Proof.lean ====
/-
  The certificate of a positional-encoding kernel against its jnp reference.

  Both programs build the same table `pe : [4096, 1024]` on the host, from the same four arguments by the same
  lines: row tables for depth, height and width, each [16, 341], broadcast over the 16×16×16 lattice; a fourth
  table [16, 16, 16, 1]; the four joined along the last axis (341 + 341 + 341 + 1 = 1024) and the lattice flattened.
  The reference then broadcasts `pe` over a new leading batch axis of extent 8. The kernel instead runs one region
  over a 4 × 8 grid that copies row tile n of `pe` into rows [1024·n, 1024·(n+1)) of batch slice b. Either way entry
  (b, n, k) of the result is `pe (n, k)`: no arithmetic is done, so the two results are equal as arrays of extended
  reals by reading indices alone, and the precondition (finite inputs) is never opened.

  The frames: the kernel's (at either instance) is the pipeline's run, whose windows are the table's buffer and the
  result's, neither an argument; the reference's is its run with the result dropped. The idealization rewrote
  nothing, so `preserves` has nothing to state.
-/
import proofs.«176022_j41308995453355_1_alg».proof.Defs
import proofs.«176022_j41308995453355_1_alg».proof.Proof.Gen.Kernel
import proofs.«176022_j41308995453355_1_alg».proof.Proof.Gen.KernelIdeal
import proofs.«176022_j41308995453355_1_alg».proof.Proof.Gen.ReferenceIdeal
import proofs.«176022_j41308995453355_1_alg».proof.Proof.Gen.Pre_finite_inputs
import proofs.«176022_j41308995453355_1_alg».proof.Proof.BitsCopyRun
import proofs.«176022_j41308995453355_1_alg».proof.Proof.IdealCopyRun
import proofs.«176022_j41308995453355_1_alg».proof.Proof.IdealCopyValue
import proofs.«176022_j41308995453355_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.CopyRun.frame m ρ

theorem frame_kernel_ideal : Cert.frame_KernelIdeal := fun m ρ _ => Cert.KernelIdeal.CopyRun.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs' host lines up to the table are the same operations of the same arguments. -/
theorem tables_agree (x1 x2 x3 : Cert.KernelIdeal.S16x341.Idx → Elt Ideal .f32) (x4 : Cert.KernelIdeal.S16x16x16x1.Idx → Elt Ideal .f32) :
    Cert.ReferenceIdeal.Read.val_main_v7 (F := Ideal) x1 x2 x3 x4 = Cert.KernelIdeal.CopyValue.tableOf (F := Ideal) x1 x2 x3 x4 := rfl

/-- Both results are the table under every batch slice. -/
theorem algebraic : Cert.algebraic_KernelIdeal_ReferenceIdeal := by
  intro m ρ m' ρ' _ hagree
  refine ⟨_, Cert.KernelIdeal.CopyValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2.1, (hagree c).2.2.2.1, (hagree c).2.2.2.2,
    Cert.ReferenceIdeal.Read.val_main_v9_eq, Cert.ReferenceIdeal.RefSide.result_is_overBatch]
  exact congrArg Cert.BatchSpec.overBatch (tables_agree _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
